-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) (main_arg3 : IVec S128x128 1) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S16384x4096 : Shape := ⟨2, ![16384, 4096]⟩
abbrev S1x4096 : Shape := ⟨2, ![1, 4096]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 17
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S128x128, .i1⟩
  | .hbm, ⟨4, _⟩ => ⟨S128x32x128, .i1⟩
  | .hbm, ⟨5, _⟩ => ⟨S4096x128, .i1⟩
  | .hbm, ⟨6, _⟩ => ⟨S4096x128x32, .i1⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S16384x4096, .f32⟩
  | .hbm, ⟨12, _⟩ => ⟨S16384x4096, .bf16⟩
  | .hbm, ⟨13, _⟩ => ⟨S4096x4096, .bf16⟩
  | .hbm, ⟨14, _⟩ => ⟨S1x4096, .f32⟩
  | .hbm, ⟨15, _⟩ => ⟨S16384x4096, .f32⟩
  | .hbm, ⟨16, _⟩ => ⟨S8x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  transposes_S4096x4096_S4096x4096_1_0 : S4096x4096.Transposes [1, 0] S4096x4096
  shapeCasts_S8x2048x4096_S16384x4096 : S8x2048x4096.ShapeCasts S16384x4096
  bitsLt_bf16_f32 : FTy.bits .bf16 < FTy.bits .f32
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S16384x4096_S8x2048x4096 : S16384x4096.ShapeCasts S8x2048x4096
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x4096.size a
  hwx0_3 : ∀ i : grid0.Coords, EltTy.bits .f32 = 32 ∨ (Rect.block (s := S16384x4096) S1024x512.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S128x128, .i1⟩
  | .hbm, ⟨4, _⟩ => ⟨S128x32x128, .i1⟩
  | .hbm, ⟨5, _⟩ => ⟨S4096x128, .i1⟩
  | .hbm, ⟨6, _⟩ => ⟨S4096x128x32, .i1⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S8x2048x4096, .f32⟩
  | .hbm, ⟨11, _⟩ => ⟨S8x2048x4096, .f32⟩
  | .hbm, ⟨12, _⟩ => ⟨S1x1x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.KernelPieces.lean ====
/-
  What one run of the kernel body leaves behind, as values.

  The body keeps a [1024, 512] accumulator in a scratch buffer across the four steps of the contraction axis.
  At the first step it stores zeros and then adds the step's matrix product onto them; at the two middle
  steps it adds the step's product onto what the step before left; at the last step it does the same and
  then writes twice the accumulator plus the bias row into the output block.  Each statement below says that
  the stores the body's run found, read back, are exactly these payload terms of the loaded blocks.
-/
import proofs.«131394_j17849884082260_1_alg».proof.Defs
import proofs.«131394_j17849884082260_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.BlockSparse

open Cert.KernelIdeal Cert.KernelIdeal.Gen

variable {F : FTy → Type} [FloatOps F]

theorem offsets_zero : (![0, 0] : Fin 2 → Nat) = fun _ => 0 := funext fun a => by fin_cases a <;> rfl

/-- First step of the contraction axis: the accumulator ends at the step's product added onto the stored zeros. -/
theorem acc_first_step (c : Dev nD) (i : grid0.Coords) (a3 : Memref sig .tc .vmem S1024x1024 .bf16) (h3 : a3.IsWhole)
    (a4 : Memref sig .tc .vmem S1024x512 .bf16) (h4 : a4.IsWhole) (a5 : Memref sig .tc .vmem S1x512 .f32) (h5 : a5.IsWhole)
    (a6 : Memref sig .tc .vmem S1024x512 .f32) (h6 : a6.IsWhole) (a7 : Memref sig .tc .vmem S1024x512 .f32) (h7 : a7.IsWhole)
    (hc0 : cond0_0 i) (hc1 : ¬cond0_1 i)
    (x0 : Vec F S1024x1024 .bf16) (x1 : Vec F S1024x512 .bf16) (x2 : Vec F S1x512 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x512) offsets_zero, View.readCov_unit_zero (S := S1024x512) _ offsets_zero]
  simp only [View.readAt_eq_ld, h3.read_unread, h4.read_unread, View.ld_unit_zero (S := S1024x512) offsets_zero,
    View.ld_unit_zero (S := S1024x1024) offsets_zero]

/-- A middle step: the accumulator ends at the step's product added onto what it held. -/
theorem acc_middle_step (c : Dev nD) (i : grid0.Coords) (a3 : Memref sig .tc .vmem S1024x1024 .bf16) (h3 : a3.IsWhole)
    (a4 : Memref sig .tc .vmem S1024x512 .bf16) (h4 : a4.IsWhole) (a5 : Memref sig .tc .vmem S1x512 .f32) (h5 : a5.IsWhole)
    (a6 : Memref sig .tc .vmem S1024x512 .f32) (h6 : a6.IsWhole) (a7 : Memref sig .tc .vmem S1024x512 .f32) (h7 : a7.IsWhole)
    (hc0 : ¬cond0_0 i) (hc1 : ¬cond0_1 i)
    (x0 : Vec F S1024x1024 .bf16) (x1 : Vec F S1024x512 .bf16) (x2 : Vec F S1x512 .f32) (xs0 : Vec F S1024x512 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero offsets_zero]
  simp only [View.readAt_eq_ld, h7.read_unread, h3.read_unread, h4.read_unread,
    View.ld_unit_zero (S := S1024x512) offsets_zero, View.ld_unit_zero (S := S1024x1024) offsets_zero]

/-- The last step: the accumulator is updated as at a middle step … -/
theorem acc_last_step (c : Dev nD) (i : grid0.Coords) (a3 : Memref sig .tc .vmem S1024x1024 .bf16) (h3 : a3.IsWhole)
    (a4 : Memref sig .tc .vmem S1024x512 .bf16) (h4 : a4.IsWhole) (a5 : Memref sig .tc .vmem S1x512 .f32) (h5 : a5.IsWhole)
    (a6 : Memref sig .tc .vmem S1024x512 .f32) (h6 : a6.IsWhole) (a7 : Memref sig .tc .vmem S1024x512 .f32) (h7 : a7.IsWhole)
    (hc0 : ¬cond0_0 i) (hc1 : cond0_1 i)
    (x0 : Vec F S1024x1024 .bf16) (x1 : Vec F S1024x512 .bf16) (x2 : Vec F S1x512 .f32) (xs0 : Vec F S1024x512 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero offsets_zero]
  simp only [View.readAt_eq_ld, h7.read_unread, h3.read_unread, h4.read_unread,
    View.ld_unit_zero (S := S1024x512) offsets_zero, View.ld_unit_zero (S := S1024x1024) offsets_zero]

/-- … and the output block is written from the updated accumulator and the bias row. -/
theorem out_last_step (c : Dev nD) (i : grid0.Coords) (a3 : Memref sig .tc .vmem S1024x1024 .bf16) (h3 : a3.IsWhole)
    (a4 : Memref sig .tc .vmem S1024x512 .bf16) (h4 : a4.IsWhole) (a5 : Memref sig .tc .vmem S1x512 .f32) (h5 : a5.IsWhole)
    (a6 : Memref sig .tc .vmem S1024x512 .f32) (h6 : a6.IsWhole) (a7 : Memref sig .tc .vmem S1024x512 .f32) (h7 : a7.IsWhole)
    (hc0 : ¬cond0_0 i) (hc1 : cond0_1 i)
    (x0 : Vec F S1024x1024 .bf16) (x1 : Vec F S1024x512 .bf16) (x2 : Vec F S1x512 .f32) (xs0 : Vec F S1024x512 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero offsets_zero]
  simp only [View.readAt_eq_ld, h7.read_unread, h3.read_unread, h4.read_unread, h5.read_unread,
    View.readCov_unit_zero (S := S1024x512) _ offsets_zero,
    View.ld_unit_zero (S := S1024x512) offsets_zero, View.ld_unit_zero (S := S1024x1024) offsets_zero,
    View.ld_unit_zero (S := S1x512) offsets_zero]

end Cert.BlockSparse

end
-- ==== Proof.KernelSteps.lean ====
/-
  The accumulator along the grid, and the block a write-back point leaves.

  The grid is 16 × 8 × 4 with the contraction axis fastest, so the points 4q, 4q+1, 4q+2, 4q+3 are the four
  contraction steps of one output block.  The accumulator after point 4q is the first step's update of zeros;
  after each later point of the group it is that point's update of what the point before left; and the output
  block after point 4q+3 is the output payload of the accumulator there and the point's bias block.  Unrolled,
  the output block is the output payload of four nested updates starting from the reset payload.
-/
import proofs.«131394_j17849884082260_1_alg».proof.Defs
import proofs.«131394_j17849884082260_1_alg».proof.Proof.Gen.KernelIdeal.Frame
import proofs.«131394_j17849884082260_1_alg».proof.Proof.KernelPieces

noncomputable section

open Idealize.ShloMosaic Idealize.ShloMosaic.TcCoe Idealize.SL.Sem
open Idealize.ShloMosaic.Pipeline (Dat)

namespace Cert.BlockSparse

open Cert.KernelIdeal Cert.KernelIdeal.Gen

variable {F : FTy → Type} [FloatOps F]
variable (m : (ℓ : Loc nD τ sig) → Buf (Elt F) ℓ)

/-- The three input blocks at a grid point, at their literal types: a [1024, 1024] block of the activations,
    a [1024, 512] block of the transposed masked weight, a [1, 512] block of the bias row. -/
abbrev lhsBlock (c : Dev nD) (t : Fin cfg0.N) : Vec F S1024x1024 .bf16 := iblk m c 0 t
abbrev rhsBlock (c : Dev nD) (t : Fin cfg0.N) : Vec F S1024x512 .bf16 := iblk m c 1 t
abbrev biasBlock (c : Dev nD) (t : Fin cfg0.N) : Vec F S1x512 .f32 := iblk m c 2 t

/-- The accumulator after grid point `n`. -/
abbrev accAfter (c : Dev nD) (n : ℕ) (h : n < cfg0.N) : Vec F S1024x512 .f32 := (outsAt0 m c n h).2

/-- After a point that starts a group of four: the update of the reset payload. -/
theorem accAfter_first (c : Dev nD) (t : Fin cfg0.N) (h0 : t.val % 4 = 0) :
    accAfter m c t.val t.isLt = k0_pay2 (k0_pay1 (F := F)) (lhsBlock m c t) (rhsBlock m c t) := by
  have h1 : ¬t.val % 4 = 3 := by omega
  show (outsAt0 m c t.val t.isLt).2 = _
  rw [outsAt0_A m c t h0 h1]
  dsimp only
  exact acc_first_step c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After any other point: the update of what the point before left. -/
theorem accAfter_next (c : Dev nD) (n : ℕ) (h : n + 1 < cfg0.N) (h0 : ¬(n + 1) % 4 = 0) :
    accAfter m c (n + 1) h
      = k0_pay2 (accAfter m c n (Nat.lt_of_succ_lt h)) (lhsBlock m c ⟨n + 1, h⟩) (rhsBlock m c ⟨n + 1, h⟩) := by
  show (outsAt0 m c (⟨n + 1, h⟩ : Fin cfg0.N).val (⟨n + 1, h⟩ : Fin cfg0.N).isLt).2 = _
  by_cases h1 : (n + 1) % 4 = 3
  · rw [outsAt0_C m c ⟨n + 1, h⟩ h0 h1]
    dsimp only
    exact acc_last_step c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact acc_middle_step c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2

/-- The output block after a point that ends a group of four: the output payload of the accumulator there. -/
theorem outAfter_last (c : Dev nD) (t : Fin cfg0.N) (h1 : t.val % 4 = 3) :
    (outsAt0 m c t.val t.isLt).1 = k0_pay3 (accAfter m c t.val t.isLt) (biasBlock m c t) := by
  have h0 : ¬t.val % 4 = 0 := by omega
  show (outsAt0 m c t.val t.isLt).1 = k0_pay3 (outsAt0 m c t.val t.isLt).2 _
  rw [outsAt0_C m c t h0 h1]
  dsimp only
  refine (out_last_step c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2).trans ?_
  exact congrArg (fun a => k0_pay3 a (iblk m c 2 t))
    (acc_last_step c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2).symm

/-- The four points of group `q`. -/
abbrev groupPoint (q : ℕ) (h : 4 * q + 3 < cfg0.N) (k : Fin 4) : Fin cfg0.N := ⟨4 * q + k.val, by omega⟩

/-- The output block of group `q`, unrolled: four nested updates from the reset payload, then the output payload. -/
theorem outAfter_group (c : Dev nD) (q : ℕ) (h : 4 * q + 3 < cfg0.N) :
    (outsAt0 m c (4 * q + 3) h).1
      = k0_pay3
          (k0_pay2
            (k0_pay2
              (k0_pay2
                (k0_pay2 (k0_pay1 (F := F)) (lhsBlock m c (groupPoint q h 0)) (rhsBlock m c (groupPoint q h 0)))
                (lhsBlock m c (groupPoint q h 1)) (rhsBlock m c (groupPoint q h 1)))
              (lhsBlock m c (groupPoint q h 2)) (rhsBlock m c (groupPoint q h 2)))
            (lhsBlock m c (groupPoint q h 3)) (rhsBlock m c (groupPoint q h 3)))
          (biasBlock m c (groupPoint q h 3)) := by
  refine (outAfter_last m c ⟨4 * q + 3, h⟩ (by show (4 * q + 3) % 4 = 3; omega)).trans ?_
  refine congrArg (fun a => k0_pay3 a (biasBlock m c (groupPoint q h 3))) ?_
  refine (accAfter_next m c (4 * q + 2) h (by omega)).trans ?_
  refine congrArg (fun a => k0_pay2 a (lhsBlock m c (groupPoint q h 3)) (rhsBlock m c (groupPoint q h 3))) ?_
  refine (accAfter_next m c (4 * q + 1) (by omega) (by omega)).trans ?_
  refine congrArg (fun a => k0_pay2 a (lhsBlock m c (groupPoint q h 2)) (rhsBlock m c (groupPoint q h 2))) ?_
  refine (accAfter_next m c (4 * q) (by omega) (by omega)).trans ?_
  refine congrArg (fun a => k0_pay2 a (lhsBlock m c (groupPoint q h 1)) (rhsBlock m c (groupPoint q h 1))) ?_
  exact accAfter_first m c ⟨4 * q, by omega⟩ (by show (4 * q) % 4 = 0; omega)

end Cert.BlockSparse

end
-- ==== Proof.BlockedSum.lean ====
/-
  Extended-real arithmetic behind the block-sparse linear layer.

  The kernel accumulates the contraction over 4096 input features in four consecutive blocks of 1024,
  starting from zero, and then doubles the accumulator; the reference contracts all 4096 features at once
  and adds the result to itself.  Over the extended reals addition is commutative and associative and
  zero is neutral, so the four partial sums added in order are the whole sum; and doubling is adding a
  value to itself at every extended real, the two infinities included.  Nothing here needs finiteness.
-/
import Idealize.ShloMosaic.PureOps.Ideal.Laws
import Mathlib.Data.EReal.Operations
import Mathlib.Algebra.BigOperators.Fin

noncomputable section

namespace Cert.BlockSparse

open Idealize.ShloMosaic

/-- Twice an extended real is that value added to itself (at `⊤` and `⊥` both sides are the same infinity). -/
theorem two_mul_ereal (y : EReal) : ((2 : ℝ) : EReal) * y = y + y := by
  induction y using EReal.rec with
  | bot => rw [EReal.coe_mul_bot_of_pos (by norm_num), EReal.bot_add]
  | coe r => rw [← EReal.coe_mul, ← EReal.coe_add, two_mul]
  | top => rw [EReal.coe_mul_top_of_pos (by norm_num), EReal.top_add_top]

/-- The f32 word `0x40000000` is the real number two. -/
theorem ofBits_two : Ideal.ofBits .f32 0x40000000#32 = ((2 : ℝ) : EReal) := by
  simp [Ideal.ofBits, Ideal.ieee, -EReal.coe_mul]
  norm_num

/-- Position `kk` of block `kb` among 4096 positions cut into four blocks of 1024. -/
abbrev pos (kb : Fin 4) (kk : Fin 1024) : Fin 4096 := ⟨kb.val * 1024 + kk.val, by omega⟩

/-- A sum over 4096 positions is the sum of its four blocks of 1024, added in order onto zero. -/
theorem sum_four_blocks (g : Fin 4096 → EReal) :
    (((0 + ∑ kk : Fin 1024, g (pos 0 kk)) + ∑ kk : Fin 1024, g (pos 1 kk)) + ∑ kk : Fin 1024, g (pos 2 kk))
      + ∑ kk : Fin 1024, g (pos 3 kk) = ∑ q : Fin 4096, g q := by
  have e : ∑ q : Fin 4096, g q = ∑ p : Fin 4 × Fin 1024, g (finProdFinEquiv p) :=
    (Equiv.sum_comp (finProdFinEquiv (m := 4) (n := 1024)) g).symm
  rw [e, Fintype.sum_prod_type, Fin.sum_univ_four, zero_add]
  have h : ∀ (kb : Fin 4) (kk : Fin 1024), (finProdFinEquiv (kb, kk) : Fin 4096) = pos kb kk := by
    intro kb kk
    apply Fin.ext
    show kk.val + 1024 * kb.val = kb.val * 1024 + kk.val
    omega
  simp only [h]

end Cert.BlockSparse

end
-- ==== Proof.KernelPayloads.lean ====
/-
  The body's three payloads read at one entry, over the extended reals.

  The reset payload is zero everywhere.  The update payload at row `r`, column `cc` is the old accumulator
  entry plus the inner product of row `r` of the left block with column `cc` of the right block (1024 terms:
  a matrix product into a zero accumulator is a plain sum, and a change of float format is the identity).
  The output payload is twice the accumulator entry plus the bias row's entry in column `cc`.
-/
import proofs.«131394_j17849884082260_1_alg».proof.Defs
import proofs.«131394_j17849884082260_1_alg».proof.Proof.Gen.KernelIdeal.Skeleton
import proofs.«131394_j17849884082260_1_alg».proof.Proof.BlockedSum
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.BlockSparse

open Cert.KernelIdeal Cert.KernelIdeal.Gen

/-- The reset payload: zero at every entry. -/
theorem reset_apply (j : S1024x512.Idx) : k0_pay1 (F := Ideal) j = 0 := by
  unfold k0_pay1
  rw [shapeCast_self]
  exact Ideal.ofBits_zero_f32

/-! The product's operand indices, axis by axis: the left operand is read at (output row, contraction position),
    the right operand at (contraction position, output column). -/

theorem prod_lhs_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem prod_lhs_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem prod_rhs_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem prod_rhs_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The update payload: the old entry plus a 1024-term inner product. -/
theorem update_apply (v3 : Vec Ideal S1024x512 .f32) (v4 : Vec Ideal S1024x1024 .bf16) (v6 : Vec Ideal S1024x512 .bf16)
    (r : Fin 1024) (cc : Fin 512) :
    k0_pay2 v3 v4 v6 (ix2 r cc) = v3 (ix2 r cc) + ∑ kk : Fin 1024, v4 (ix2 r kk) * v6 (ix2 kk cc) := by
  unfold k0_pay2
  simp only [shapeCast_self]
  rw [addf_apply]
  refine congrArg (v3 (ix2 r cc) + ·) ?_
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 r cc) ((ValueIdx.contrEquiv1 dot_S1024x1024_S1024x512_S1024x512_1_0_0_1_n_n 1024 rfl rfl).symm k) = ix2 r k := funext fun a => Fin.ext (by
    match a with
    | ⟨0, _⟩ => exact prod_lhs_0 _ _
    | ⟨1, _⟩ => exact (prod_lhs_1 _ _).trans hk)
  have er : dot_S1024x1024_S1024x512_S1024x512_1_0_0_1_n_n.rhsIdx (ix2 r cc) ((ValueIdx.contrEquiv1 dot_S1024x1024_S1024x512_S1024x512_1_0_0_1_n_n 1024 rfl rfl).symm k) = ix2 k cc := funext fun a => Fin.ext (by
    match a with
    | ⟨0, _⟩ => exact (prod_rhs_0 _ _).trans hk
    | ⟨1, _⟩ => exact prod_rhs_1 _ _)
  rw [el, er]

/-- The output payload: twice the accumulator entry plus the bias entry of the column. -/
theorem output_apply (v16 : Vec Ideal S1024x512 .f32) (v19 : Vec Ideal S1x512 .f32) (r : Fin 1024) (cc : Fin 512) :
    k0_pay3 v16 v19 (ix2 r cc) = ((2 : ℝ) : EReal) * v16 (ix2 r cc) + v19 (ix2 0 cc) := by
  unfold k0_pay3
  simp only [shapeCast_self]
  rw [addf_apply, mulf_apply, broadcast_apply]
  rw [broadcastTo_apply v19 broadcasts_S1x512_S1024x512 (ix2 r cc) (ix2 0 cc) (fun a => match a with
    | ⟨0, _⟩ => by show 0 = if (1 : Nat) = 1 then 0 else _; rw [if_pos rfl]
    | ⟨1, _⟩ => by show cc.val = if (512 : Nat) = 1 then 0 else cc.val; rw [if_neg (by decide)])]
  show Ideal.ofBits .f32 0x40000000#32 * _ + _ = _
  rw [ofBits_two]

end Cert.BlockSparse

end
-- ==== Proof.Spec.lean ====
/-
  The block-sparse linear layer as one function of its arrays, in two arrangements, and their equality.

  With `x` the activations, `w` the masked weight (output feature × input feature) and `b` the bias, the layer is
  `y + y + b` with `y[b,s,o] = Σ_q x[b,s,q] · w[o,q]` (the reference's arrangement, `layer`).  The kernel sees the
  activations with batch and sequence flattened to 16384 rows, the weight transposed, and the bias as a one-row
  matrix, contracts in four blocks of 1024 onto zero, doubles and adds the bias (`blocked`).  Over the extended
  reals the two agree entry by entry (`blocked_apply`): the four partial sums added in order are the whole sum
  and doubling is adding a value to itself.
-/
import proofs.«131394_j17849884082260_1_alg».proof.Proof.BlockedSum
import Idealize.ShloMosaic.Lib.ValueIdx

noncomputable section

namespace Cert.BlockSparse

open Idealize.ShloMosaic Idealize.ShloMosaic.ValueIdx

abbrev ActShape : Shape := ⟨3, ![8, 2048, 4096]⟩
abbrev WeightShape : Shape := ⟨2, ![4096, 4096]⟩
abbrev BiasShape : Shape := ⟨1, ![4096]⟩
abbrev ActRows : Shape := ⟨2, ![16384, 4096]⟩
abbrev BiasRow : Shape := ⟨2, ![1, 4096]⟩

/-- The reference's arrangement: the contraction over all 4096 input features, added to itself, plus the bias. -/
def layer (x : ActShape.Idx → EReal) (w : WeightShape.Idx → EReal) (b : BiasShape.Idx → EReal) : ActShape.Idx → EReal :=
  fun i =>
    ((∑ q : Fin 4096, x (ix3 (⟨(i 0).val, (i 0).isLt⟩ : Fin 8) (⟨(i 1).val, (i 1).isLt⟩ : Fin 2048) q) * w (ix2 (⟨(i 2).val, (i 2).isLt⟩ : Fin 4096) q))
      + (∑ q : Fin 4096, x (ix3 (⟨(i 0).val, (i 0).isLt⟩ : Fin 8) (⟨(i 1).val, (i 1).isLt⟩ : Fin 2048) q) * w (ix2 (⟨(i 2).val, (i 2).isLt⟩ : Fin 4096) q)))
      + b (ix1 (⟨(i 2).val, (i 2).isLt⟩ : Fin 4096))

/-- One block of the contraction: positions `kb·1024 … kb·1024 + 1023` of row `R` against column `C`. -/
def partSum (X : ActRows.Idx → EReal) (W : WeightShape.Idx → EReal) (R : Fin 16384) (C : Fin 4096) (kb : Fin 4) : EReal :=
  ∑ kk : Fin 1024, X (ix2 R (pos kb kk)) * W (ix2 (pos kb kk) C)

/-- The kernel's arrangement: four blocks added in order onto zero, doubled, plus the bias row's entry. -/
def blocked (X : ActRows.Idx → EReal) (W : WeightShape.Idx → EReal) (Bv : BiasRow.Idx → EReal) : ActRows.Idx → EReal :=
  fun j =>
    ((2 : ℝ) : EReal) * ((((0 + partSum X W ⟨(j 0).val, (j 0).isLt⟩ ⟨(j 1).val, (j 1).isLt⟩ 0)
        + partSum X W ⟨(j 0).val, (j 0).isLt⟩ ⟨(j 1).val, (j 1).isLt⟩ 1)
        + partSum X W ⟨(j 0).val, (j 0).isLt⟩ ⟨(j 1).val, (j 1).isLt⟩ 2)
        + partSum X W ⟨(j 0).val, (j 0).isLt⟩ ⟨(j 1).val, (j 1).isLt⟩ 3)
      + Bv (ix2 (0 : Fin 1) (⟨(j 1).val, (j 1).isLt⟩ : Fin 4096))

/-- Entry (R, C) of the kernel's arrangement is the whole contraction added to itself, plus the bias entry. -/
theorem blocked_apply (X : ActRows.Idx → EReal) (W : WeightShape.Idx → EReal) (Bv : BiasRow.Idx → EReal)
    (R : Fin 16384) (C : Fin 4096) :
    blocked X W Bv (ix2 R C)
      = ((∑ q : Fin 4096, X (ix2 R q) * W (ix2 q C)) + ∑ q : Fin 4096, X (ix2 R q) * W (ix2 q C)) + Bv (ix2 (0 : Fin 1) C) := by
  show ((2 : ℝ) : EReal) * ((((0 + partSum X W R C 0) + partSum X W R C 1) + partSum X W R C 2) + partSum X W R C 3)
      + Bv (ix2 (0 : Fin 1) C) = _
  unfold partSum
  rw [sum_four_blocks (fun q => X (ix2 R q) * W (ix2 q C)), two_mul_ereal]

end Cert.BlockSparse

end
-- ==== Proof.KernelValue.lean ====
/-
  The kernel's result array, over the extended reals.

  Grid point `t` of the 16 × 8 × 4 grid (contraction axis fastest) reads rows `t/32 · 1024 …` and columns
  `t%4 · 1024 …` of the flattened activations, rows `t%4 · 1024 …` and columns `(t/4)%8 · 512 …` of the transposed
  masked weight, and columns `(t/4)%8 · 512 …` of the bias row; the output block of the group `4q … 4q+3` sits at
  rows `q/8 · 1024 …`, columns `q%8 · 512 …`.  So the block written back after point `4q + 3` is that block of the
  kernel's arrangement `blocked` of the three arrays as the region finds them; the 128 written blocks tile the
  [16384, 4096] result, which therefore is `blocked` of them; the program's result is its reshape to [8, 2048, 4096].
-/
import proofs.«131394_j17849884082260_1_alg».proof.Defs
import proofs.«131394_j17849884082260_1_alg».proof.Proof.Gen.KernelIdeal.Frame
import proofs.«131394_j17849884082260_1_alg».proof.Proof.KernelSteps
import proofs.«131394_j17849884082260_1_alg».proof.Proof.KernelPayloads
import proofs.«131394_j17849884082260_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.BlockSparse

open Cert.KernelIdeal Cert.KernelIdeal.Gen

variable (m : (ℓ : Loc nD τ sig) → Buf (Elt Ideal) ℓ) (ρ : Dev nD → PrngReg)

/-- The three arrays the region stages, as it finds them: the flattened activations, the transposed masked
    weight, the bias row. -/
abbrev actArr (c : Dev nD) : Vec Ideal S16384x4096 .bf16 := V m c main_v8
abbrev wgtArr (c : Dev nD) : Vec Ideal S4096x4096 .bf16 := V m c main_v9
abbrev biasArr (c : Dev nD) : Vec Ideal S1x4096 .f32 := V m c main_v10

/-- The block index of every window at every grid point, in closed form. -/
theorem block_index : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = 0 ∧ win0_2.index t (1 : Fin 2) = t.val / 4 % 8
    ∧ win0_3.index t (0 : Fin 2) = t.val / 32 ∧ win0_3.index t (1 : Fin 2) = t.val / 4 % 8)

/-- An entry of the activations' block at a point is the entry of the array at the block's offset. -/
theorem lhsBlock_apply (c : Dev nD) (t : Fin cfg0.N) (r kk : Fin 1024) (R : Fin 16384) (Q : Fin 4096)
    (hR : R.val = t.val / 32 * 1024 + r.val) (hQ : Q.val = t.val % 4 * 1024 + kk.val) :
    lhsBlock m c t (ix2 r kk) = actArr m c (ix2 R Q) := by
  obtain ⟨e0, e1, -⟩ := block_index t
  show iblk m c 0 t (ix2 r kk) = _
  unfold iblk
  rw [View.read_apply]
  show V m c main_v8 (((cfg0.win 0).blk t).view.emb (ix2 r kk)) = V m c main_v8 (ix2 R Q)
  refine congrArg (V m c main_v8) (funext fun a => Fin.ext ?_)
  match a with
  | ⟨0, _⟩ => show win0_0.index t (0 : Fin 2) * 1024 + 1 * r.val = R.val; omega
  | ⟨1, _⟩ => show win0_0.index t (1 : Fin 2) * 1024 + 1 * kk.val = Q.val; omega

/-- The same for the weight's block. -/
theorem rhsBlock_apply (c : Dev nD) (t : Fin cfg0.N) (kk : Fin 1024) (cc : Fin 512) (Q : Fin 4096) (C : Fin 4096)
    (hQ : Q.val = t.val % 4 * 1024 + kk.val) (hC : C.val = t.val / 4 % 8 * 512 + cc.val) :
    rhsBlock m c t (ix2 kk cc) = wgtArr m c (ix2 Q C) := by
  obtain ⟨-, -, e2, e3, -⟩ := block_index t
  show iblk m c 1 t (ix2 kk cc) = _
  unfold iblk
  rw [View.read_apply]
  show V m c main_v9 (((cfg0.win 1).blk t).view.emb (ix2 kk cc)) = V m c main_v9 (ix2 Q C)
  refine congrArg (V m c main_v9) (funext fun a => Fin.ext ?_)
  match a with
  | ⟨0, _⟩ => show win0_1.index t (0 : Fin 2) * 1024 + 1 * kk.val = Q.val; omega
  | ⟨1, _⟩ => show win0_1.index t (1 : Fin 2) * 512 + 1 * cc.val = C.val; omega

/-- The same for the bias row's block. -/
theorem biasBlock_apply (c : Dev nD) (t : Fin cfg0.N) (cc : Fin 512) (C : Fin 4096)
    (hC : C.val = t.val / 4 % 8 * 512 + cc.val) :
    biasBlock m c t (ix2 (0 : Fin 1) cc) = biasArr m c (ix2 (0 : Fin 1) C) := by
  obtain ⟨-, -, -, -, e4, e5, -⟩ := block_index t
  show iblk m c 2 t (ix2 (0 : Fin 1) cc) = _
  unfold iblk
  rw [View.read_apply]
  show V m c main_v10 (((cfg0.win 2).blk t).view.emb (ix2 (0 : Fin 1) cc)) = V m c main_v10 (ix2 (0 : Fin 1) C)
  refine congrArg (V m c main_v10) (funext fun a => Fin.ext ?_)
  match a with
  | ⟨0, _⟩ => show win0_2.index t (0 : Fin 2) * 1 + 1 * 0 = 0; omega
  | ⟨1, _⟩ => show win0_2.index t (1 : Fin 2) * 512 + 1 * cc.val = C.val; omega

/-- Step `k` of group `q` contributes block `k` of the contraction, for the output entry at the group's offset. -/
theorem group_part (c : Dev nD) (q : ℕ) (h : 4 * q + 3 < cfg0.N) (k : Fin 4) (r : Fin 1024) (cc : Fin 512)
    (R : Fin 16384) (C : Fin 4096) (hR : R.val = q / 8 * 1024 + r.val) (hC : C.val = q % 8 * 512 + cc.val) :
    ∑ kk : Fin 1024, lhsBlock m c (groupPoint q h k) (ix2 r kk) * rhsBlock m c (groupPoint q h k) (ix2 kk cc)
      = partSum (actArr m c) (wgtArr m c) R C k := by
  unfold partSum
  have hk : k.val < 4 := k.isLt
  refine Finset.sum_congr rfl fun kk _ => ?_
  rw [lhsBlock_apply m c (groupPoint q h k) r kk R (pos k kk)
      (by show R.val = (4 * q + k.val) / 32 * 1024 + r.val; omega)
      (by show k.val * 1024 + kk.val = (4 * q + k.val) % 4 * 1024 + kk.val; omega),
    rhsBlock_apply m c (groupPoint q h k) kk cc (pos k kk) C
      (by show k.val * 1024 + kk.val = (4 * q + k.val) % 4 * 1024 + kk.val; omega)
      (by show C.val = (4 * q + k.val) / 4 % 8 * 512 + cc.val; omega)]

/-- The output block of group `q`, entry by entry, is the kernel's arrangement at the group's offset. -/
theorem group_value (c : Dev nD) (q : ℕ) (h : 4 * q + 3 < cfg0.N) (r : Fin 1024) (cc : Fin 512)
    (R : Fin 16384) (C : Fin 4096) (hR : R.val = q / 8 * 1024 + r.val) (hC : C.val = q % 8 * 512 + cc.val) :
    (outsAt0 m c (4 * q + 3) h).1 (ix2 r cc) = blocked (actArr m c) (wgtArr m c) (biasArr m c) (ix2 R C) := by
  rw [outAfter_group m c q h, output_apply, update_apply, update_apply, update_apply, update_apply, reset_apply,
    group_part m c q h 0 r cc R C hR hC, group_part m c q h 1 r cc R C hR hC,
    group_part m c q h 2 r cc R C hR hC, group_part m c q h 3 r cc R C hR hC,
    biasBlock_apply m c (groupPoint q h 3) cc C (by show C.val = (4 * q + 3) / 4 % 8 * 512 + cc.val; omega)]
  rfl

end Cert.BlockSparse

end
-- ==== Proof.KernelResult.lean ====
/-
  From the written blocks to the program's result.

  The write-back points are those ending a group of four; the block written after point `4q + 3` is the block at
  rows `q/8 · 1024 …`, columns `q%8 · 512 …` of the kernel's arrangement; every entry (R, C) of the [16384, 4096]
  result lies in the block of group `q = (R/1024) · 8 + C/512`.  The one host operation after the region reshapes
  that array to [8, 2048, 4096].  Before the region the host flattens the activations, masks and transposes the
  weight, and makes the bias a one-row matrix.
-/
import proofs.«131394_j17849884082260_1_alg».proof.Defs
import proofs.«131394_j17849884082260_1_alg».proof.Proof.Gen.KernelIdeal.Frame
import proofs.«131394_j17849884082260_1_alg».proof.Proof.KernelValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.BlockSparse

open Cert.KernelIdeal Cert.KernelIdeal.Gen

variable (m : (ℓ : Loc nD τ sig) → Buf (Elt Ideal) ℓ) (ρ : Dev nD → PrngReg)

/-- What a write-back point writes is its block of the kernel's arrangement. -/
theorem written_block (c : Dev nD) (t : Fin cfg0.N) (hf : (cfg0.win 3).flush t = true) :
    (dats m 0 c).flushed 3 t
      = ((cfg0.win 3).blk t).view.read (Elt Ideal) (blocked (actArr m c) (wgtArr m c) (biasArr m c)) := by
  have h3 : t.val % 4 = 3 := (flush0_3 t).mp hf
  obtain ⟨n, hn⟩ := t
  obtain ⟨q, rfl⟩ : ∃ q, n = 4 * q + 3 := ⟨n / 4, by dsimp only at h3; omega⟩
  obtain ⟨-, -, -, -, -, -, e6, e7⟩ := block_index ⟨4 * q + 3, hn⟩
  have hN : 4 * q + 3 < 512 := lt_of_lt_of_eq hn (show cfg0.N = 512 from N_0)
  show (cfg0.win 3).cut (grid0.coords ⟨4 * q + 3, hn⟩) ((dats m 0 c).after 3 ⟨4 * q + 3, hn⟩) = _
  rw [after0_3]
  refine funext fun (y : S1024x512.Idx) => ?_
  obtain ⟨r, cc, rfl⟩ : ∃ (r : Fin 1024) (cc : Fin 512), y = ix2 r cc := ⟨y 0, y 1, eq_ix2 y⟩
  have hr : r.val < 1024 := r.isLt
  have hc : cc.val < 512 := cc.isLt
  show (outsAt0 m c (4 * q + 3) hn).1 (ix2 r cc)
    = blocked (actArr m c) (wgtArr m c) (biasArr m c) (((cfg0.win 3).blk ⟨4 * q + 3, hn⟩).view.emb (ix2 r cc))
  have hemb : ((cfg0.win 3).blk ⟨4 * q + 3, hn⟩).view.emb (ix2 r cc)
      = ix2 (⟨q / 8 * 1024 + r.val, by omega⟩ : Fin 16384) (⟨q % 8 * 512 + cc.val, by omega⟩ : Fin 4096) :=
    funext fun a => Fin.ext (by
      match a with
      | ⟨0, _⟩ => show win0_3.index ⟨4 * q + 3, hn⟩ (0 : Fin 2) * 1024 + 1 * r.val = q / 8 * 1024 + r.val; dsimp only at e6; omega
      | ⟨1, _⟩ => show win0_3.index ⟨4 * q + 3, hn⟩ (1 : Fin 2) * 512 + 1 * cc.val = q % 8 * 512 + cc.val; dsimp only at e7; omega)
  rw [hemb]
  exact group_value m c q hn r cc _ _ rfl rfl

/-- An entry of the result is in a write-back point's block iff each coordinate is in the block's range. -/
theorem mem_out_block (t : Fin cfg0.N) (i : S16384x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v11).slice (win0_3.rect t)).set ↔ _
  rw [View.set_slice_whole, Rect.mem_set_unit]
  exact Iff.rfl

/-- Every entry of the result is written by the last point of some group. -/
theorem out_covered (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 512 := N_0
  have ht : 4 * ((i 0).val / 1024 * 8 + (i 1).val / 512) + 3 < cfg0.N := by omega
  obtain ⟨-, -, -, -, -, -, e6, e7⟩ := block_index ⟨4 * ((i 0).val / 1024 * 8 + (i 1).val / 512) + 3, ht⟩
  dsimp only at e6 e7
  refine ⟨⟨4 * ((i 0).val / 1024 * 8 + (i 1).val / 512) + 3, ht⟩, (flush0_3 _).mpr (by dsimp only; omega), ?_⟩
  rw [mem_out_block]
  intro a
  match a with
  | ⟨0, _⟩ =>
    show win0_3.index ⟨4 * ((i 0).val / 1024 * 8 + (i 1).val / 512) + 3, ht⟩ (0 : Fin 2) * 1024 ≤ (i 0).val
      ∧ (i 0).val < win0_3.index ⟨4 * ((i 0).val / 1024 * 8 + (i 1).val / 512) + 3, ht⟩ (0 : Fin 2) * 1024 + 1024
    omega
  | ⟨1, _⟩ =>
    show win0_3.index ⟨4 * ((i 0).val / 1024 * 8 + (i 1).val / 512) + 3, ht⟩ (1 : Fin 2) * 512 ≤ (i 1).val
      ∧ (i 1).val < win0_3.index ⟨4 * ((i 0).val / 1024 * 8 + (i 1).val / 512) + 3, ht⟩ (1 : Fin 2) * 512 + 512
    omega

/-- So the region's result array ends at the kernel's arrangement of the three staged arrays. -/
theorem region_result (c : Dev nD) :
    (dats m 0 c).arrAt 3 cfg0.N = blocked (actArr m c) (wgtArr m c) (biasArr m c) :=
  (dats m 0 c).arrAt_eq_of_cover 3 _ (written_block m c) out_covered

/-- The program's result: the reshape of the region's result. -/
theorem tail_result (c : Dev nD) :
    Pipeline.afterTail₀ cfgs (dats m) 0 (V0 m) [hostOps1] c main_v12
      = shapeCast S8x2048x4096 (blocked (actArr m c) (wgtArr m c) (biasArr m c)) shapeCasts_S16384x4096_S8x2048x4096 := by
  unfold Pipeline.afterTail₀
  show StableHlo.after hostOps1 _ (Proc.devRef .tc main_v12) = _
  after_results
  exact congrArg (fun a => shapeCast S8x2048x4096 a shapeCasts_S16384x4096_S8x2048x4096)
    ((Pipeline.withArrays_arr spec0 launch0.win.arr_inj c (V0 m c) (fun w => (dats m 0 c).arrAt w (cfgs 0).N) 3).trans
      (region_result m c))

end Cert.BlockSparse

end
-- ==== Proof.KernelLayout.lean ====
/-
  The kernel's arrangement of the host-prepared arrays is the layer.

  Before the region the host flattens batch and sequence of the activations (entry (b·2048 + s, q) is entry
  (b, s, q)), transposes the masked weight (entry (q, o) is entry (o, q)) and views the bias as a one-row matrix
  (entry (0, o) is entry o); the narrowing of the first two to a shorter float format is the identity over the
  extended reals.  After the region the host reshapes the [16384, 4096] result to [8, 2048, 4096].  Read at
  (b, s, o), the kernel's arrangement of these arrays is therefore the reference's arrangement of the original ones.
-/
import proofs.«131394_j17849884082260_1_alg».proof.Defs
import proofs.«131394_j17849884082260_1_alg».proof.Proof.Gen.KernelIdeal
import proofs.«131394_j17849884082260_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.BlockSparse

open Cert.KernelIdeal Cert.KernelIdeal.Gen

/-- The flattened activations at row `b·2048 + s`. -/
theorem flat_act_apply (x0 : FVec Ideal S8x2048x4096 .f32) (b : Fin 8) (s : Fin 2048) (q : Fin 4096) (R : Fin 16384)
    (hR : R.val = b.val * 2048 + s.val) :
    (truncf (F := Ideal) .bf16 (shapeCast S16384x4096 x0 shapeCasts_S8x2048x4096_S16384x4096) bitsLt_bf16_f32 : FVec Ideal S16384x4096 .bf16) (ix2 R q)
      = x0 (ix3 b s q) := by
  rw [truncf_apply]
  exact shapeCast_apply x0 shapeCasts_S8x2048x4096_S16384x4096 (ix2 R q) (ix3 b s q)
    (by rw [Shape.rowMajor_val_two, Shape.rowMajor_val_three]
        show (b.val * 2048 + s.val) * 4096 + q.val = R.val * 4096 + q.val
        rw [hR])

/-- The transposed weight at (q, o). -/
theorem transposed_weight_apply (wm : FVec Ideal S4096x4096 .f32) (q o : Fin 4096) :
    (truncf (F := Ideal) .bf16 (transpose S4096x4096 [1, 0] wm transposes_S4096x4096_S4096x4096_1_0) bitsLt_bf16_f32 : FVec Ideal S4096x4096 .bf16) (ix2 q o)
      = wm (ix2 o q) := by
  rw [truncf_apply]
  exact transpose_apply [1, 0] wm transposes_S4096x4096_S4096x4096_1_0 (ix2 q o) (ix2 o q)
    (fun a => match a with
      | ⟨0, _⟩ => rfl
      | ⟨1, _⟩ => rfl)

/-- The bias row at (0, o). -/
theorem bias_row_apply (x2 : FVec Ideal S4096 .f32) (o : Fin 4096) :
    (shapeCast S1x4096 x2 shapeCasts_S4096_S1x4096 : FVec Ideal S1x4096 .f32) (ix2 (0 : Fin 1) o) = x2 (ix1 o) :=
  shapeCast_apply x2 shapeCasts_S4096_S1x4096 (ix2 (0 : Fin 1) o) (ix1 o)
    (by rw [Shape.rowMajor_val_one, Shape.rowMajor_val_two]
        show o.val = 0 * 4096 + o.val
        omega)

/-- The reshaped kernel arrangement of the host-prepared arrays is the layer of the original arrays. -/
theorem arranged_eq_layer (x0 : FVec Ideal S8x2048x4096 .f32) (wm : FVec Ideal S4096x4096 .f32) (x2 : FVec Ideal S4096 .f32) :
    shapeCast S8x2048x4096
        (blocked (truncf (F := Ideal) .bf16 (shapeCast S16384x4096 x0 shapeCasts_S8x2048x4096_S16384x4096) bitsLt_bf16_f32 : FVec Ideal S16384x4096 .bf16)
          (truncf (F := Ideal) .bf16 (transpose S4096x4096 [1, 0] wm transposes_S4096x4096_S4096x4096_1_0) bitsLt_bf16_f32 : FVec Ideal S4096x4096 .bf16)
          (shapeCast S1x4096 x2 shapeCasts_S4096_S1x4096 : FVec Ideal S1x4096 .f32))
        shapeCasts_S16384x4096_S8x2048x4096
      = layer x0 wm x2 := by
  funext i
  obtain ⟨b, s, o, rfl⟩ : ∃ (b : Fin 8) (s : Fin 2048) (o : Fin 4096), i = ix3 b s o := ⟨i 0, i 1, i 2, eq_ix3 i⟩
  have hb : b.val < 8 := b.isLt
  have hs : s.val < 2048 := s.isLt
  rw [shapeCast_apply _ shapeCasts_S16384x4096_S8x2048x4096 (ix3 b s o) (ix2 (⟨b.val * 2048 + s.val, by omega⟩ : Fin 16384) o)
    (by rw [Shape.rowMajor_val_two, Shape.rowMajor_val_three]; rfl)]
  rw [blocked_apply]
  have hterm : ∀ q : Fin 4096,
      (truncf (F := Ideal) .bf16 (shapeCast S16384x4096 x0 shapeCasts_S8x2048x4096_S16384x4096) bitsLt_bf16_f32 : FVec Ideal S16384x4096 .bf16)
          (ix2 (⟨b.val * 2048 + s.val, by omega⟩ : Fin 16384) q)
        * (truncf (F := Ideal) .bf16 (transpose S4096x4096 [1, 0] wm transposes_S4096x4096_S4096x4096_1_0) bitsLt_bf16_f32 : FVec Ideal S4096x4096 .bf16) (ix2 q o)
      = x0 (ix3 b s q) * wm (ix2 o q) := fun q => by
    rw [flat_act_apply x0 b s q ⟨b.val * 2048 + s.val, by omega⟩ rfl, transposed_weight_apply wm q o]
  rw [Finset.sum_congr rfl (fun q _ => hterm q), bias_row_apply]
  rfl

end Cert.BlockSparse

end
-- ==== Proof.KernelRun.lean ====
/-
  The idealized kernel's run, read: the program's result is the layer of its arguments.

  The three arrays the region stages are the host's preparations of the arguments (the flattened activations, the
  transposed masked weight, the bias row), so the reshaped region result is the reference's arrangement of the
  activations, the masked weight and the bias; the arguments themselves end unchanged.
-/
import proofs.«131394_j17849884082260_1_alg».proof.Defs
import proofs.«131394_j17849884082260_1_alg».proof.Proof.Gen.KernelIdeal.Frame
import proofs.«131394_j17849884082260_1_alg».proof.Proof.KernelResult
import proofs.«131394_j17849884082260_1_alg».proof.Proof.KernelLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.BlockSparse

open Cert.KernelIdeal Cert.KernelIdeal.Gen

/-- The masked weight as the kernel's host code computes it: the weight times the block mask expanded to entries
    (each mask bit repeated over a 32 × 32 block) and converted to a float. -/
abbrev maskedWeight (w : FVec Ideal S4096x4096 .f32) (mk : (⟨S128x128, .i1⟩ : BufTy).Contents (Elt Ideal)) : FVec Ideal S4096x4096 .f32 :=
  mulf w (uitofp .f32 (shapeCast _ (broadcastInDim S4096x128x32 ![0, 1] bcast_S4096x128_S4096x128x32_0_1 (shapeCast _ (broadcastInDim S128x32x128 ![0, 2] bcast_S128x128_S128x32x128_0_2 mk) shapeCasts_S128x32x128_S4096x128)) shapeCasts_S4096x128x32_S4096x4096))

variable (m : (ℓ : Loc nD τ sig) → Buf (Elt Ideal) ℓ) (ρ : Dev nD → PrngReg)

/-- The activations as the region finds them: flattened, the format change the identity. -/
theorem actArr_eq (c : Dev nD) :
    actArr m c = truncf (F := Ideal) .bf16 (shapeCast S16384x4096 (m ((c : Thread nD τ).loc main_arg0)) shapeCasts_S8x2048x4096_S16384x4096) bitsLt_bf16_f32 := by
  show StableHlo.after hostOps0 (fun b => m (c, b)) (Proc.devRef .tc main_v8) = _
  after_results
  rfl

/-- The weight as the region finds it: masked, transposed. -/
theorem wgtArr_eq (c : Dev nD) :
    wgtArr m c = truncf (F := Ideal) .bf16 (transpose S4096x4096 [1, 0]
      (maskedWeight (m ((c : Thread nD τ).loc main_arg1)) (m ((c : Thread nD τ).loc main_arg3))) transposes_S4096x4096_S4096x4096_1_0) bitsLt_bf16_f32 := by
  show StableHlo.after hostOps0 (fun b => m (c, b)) (Proc.devRef .tc main_v9) = _
  after_results
  rfl

/-- The bias as the region finds it: a one-row matrix. -/
theorem biasArr_eq (c : Dev nD) :
    biasArr m c = shapeCast S1x4096 (m ((c : Thread nD τ).loc main_arg2)) shapeCasts_S4096_S1x4096 := by
  show StableHlo.after hostOps0 (fun b => m (c, b)) (Proc.devRef .tc main_v10) = _
  after_results
  rfl

/-- Every weakly fair execution of the idealized kernel program terminates with its result at the layer of the
    arguments and the arguments unchanged. -/
theorem kernel_run : θ_run defs (onTc (τ := τ) (main (F := Ideal))) ⟨m, fun _ => 0, ρ⟩ fun r => ∀ c : Dev nD,
      r.2.mem ((c.tc : Thread nD τ).loc main_v12)
        = layer (m ((c.tc : Thread nD τ).loc main_arg0))
            (maskedWeight (m ((c.tc : Thread nD τ).loc main_arg1)) (m ((c.tc : Thread nD τ).loc main_arg3)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v12 (Pipeline.mem_restRefs_of main_v12 (by decide) (by decide))).trans (tail_result m c)).trans (by
        rw [actArr_eq, wgtArr_eq, biasArr_eq]
        exact arranged_eq_layer _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.BlockSparse

end
-- ==== Proof.Reference.lean ====
/-
  The reference, read entry by entry over the extended reals: its result is `layer` of the activations, the
  masked weight (the weight times the block mask expanded to entries, as the reference computes it) and the bias.
  The contraction is the host's `dot_general` over the last axis of the activations against the second axis of
  the masked weight; the bias is broadcast along batch and sequence.
-/
import proofs.«131394_j17849884082260_1_alg».proof.Defs
import proofs.«131394_j17849884082260_1_alg».proof.Proof.Gen.ReferenceIdeal
import proofs.«131394_j17849884082260_1_alg».proof.Proof.Gen.ReferenceIdeal.Run
import proofs.«131394_j17849884082260_1_alg».proof.Proof.Gen.ReferenceIdeal.Read
import proofs.«131394_j17849884082260_1_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.BlockSparse

open Cert.ReferenceIdeal Cert.ReferenceIdeal.Gen Cert.ReferenceIdeal.Read

/-- The reference's result is the layer of its arguments, with the masked weight the reference's own stage. -/
theorem reference_eq (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S128x128, .i1⟩ : BufTy).Contents (Elt Ideal)) :
    val_main_v10 (F := Ideal) x0 x1 x2 x3 = layer x0 (val_main_v5 (F := Ideal) x1 x3) x2 := by
  funext i
  have el : ∀ k : Fin 4096, lidx_main_v6 i k = ix3 (⟨(i 0).val, (i 0).isLt⟩ : Fin 8) (⟨(i 1).val, (i 1).isLt⟩ : Fin 2048) k :=
    fun k => funext fun a => by match a with | ⟨0, _⟩ => rfl | ⟨1, _⟩ => rfl | ⟨2, _⟩ => rfl
  have er : ∀ k : Fin 4096, ridx_main_v6 i k = ix2 (⟨(i 2).val, (i 2).isLt⟩ : Fin 4096) k :=
    fun k => funext fun a => by match a with | ⟨0, _⟩ => rfl | ⟨1, _⟩ => rfl
  have eb : idx_main_v8 (idx_main_v9 i) = ix1 (⟨(i 2).val, (i 2).isLt⟩ : Fin 4096) :=
    funext fun a => by match a with | ⟨0, _⟩ => rfl
  rw [val_main_v10_apply, val_main_v7_apply, val_main_v9_apply, val_main_v8_apply, val_main_v6_apply]
  simp only [el, er, eb]
  rfl

end Cert.BlockSparse

end
-- ==== Proof.lean ====
/-
  A block-sparse linear layer, kernel against reference, over the extended reals.

  Both programs mask the [4096, 4096] weight by a [128, 128] block mask expanded to entries.  The reference computes
  `y + y + bias` with `y = x · wᵀ` contracted over all 4096 input features at once.  The kernel flattens batch and
  sequence, transposes the masked weight, and on a 16 × 8 × 4 grid accumulates the contraction in four blocks of 1024
  onto zero in a scratch accumulator, writing `2 · acc + bias` at the last step of each group of four.

  The two results agree entry by entry: four partial sums added in order onto zero are the whole sum (addition of
  extended reals is associative with neutral zero), twice a value is the value added to itself (also at the two
  infinities), and the changes of float format are the identity.  No step needs the inputs to be finite.

  The three frames are the generated frame runs (the reference's is its generated run with the result dropped); the
  ideal pass rewrote nothing, so the kernel's idealization is the kernel's own text.
-/
import proofs.«131394_j17849884082260_1_alg».proof.Defs
import proofs.«131394_j17849884082260_1_alg».proof.Proof.Gen.Kernel
import proofs.«131394_j17849884082260_1_alg».proof.Proof.Gen.Kernel.Skeleton
import proofs.«131394_j17849884082260_1_alg».proof.Proof.Gen.Kernel.Launch
import proofs.«131394_j17849884082260_1_alg».proof.Proof.Gen.Kernel.Points
import proofs.«131394_j17849884082260_1_alg».proof.Proof.Gen.Kernel.Frame
import proofs.«131394_j17849884082260_1_alg».proof.Proof.Gen.KernelIdeal
import proofs.«131394_j17849884082260_1_alg».proof.Proof.Gen.KernelIdeal.Skeleton
import proofs.«131394_j17849884082260_1_alg».proof.Proof.Gen.KernelIdeal.Launch
import proofs.«131394_j17849884082260_1_alg».proof.Proof.Gen.KernelIdeal.Points
import proofs.«131394_j17849884082260_1_alg».proof.Proof.Gen.KernelIdeal.Frame
import proofs.«131394_j17849884082260_1_alg».proof.Proof.Gen.ReferenceIdeal
import proofs.«131394_j17849884082260_1_alg».proof.Proof.Gen.ReferenceIdeal.Run
import proofs.«131394_j17849884082260_1_alg».proof.Proof.Gen.ReferenceIdeal.Read
import proofs.«131394_j17849884082260_1_alg».proof.Proof.Gen.Pre_finite_inputs
import proofs.«131394_j17849884082260_1_alg».proof.Proof.KernelRun
import proofs.«131394_j17849884082260_1_alg».proof.Proof.Reference
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the layer of the arguments: the
    kernel by its run read back, the reference by its run read entry by entry; the masked weight is the same
    term of the weight and the mask on both sides. -/
theorem algebraic : Cert.algebraic_KernelIdeal_ReferenceIdeal := by
  intro m ρ m' ρ' _ hagree
  refine ⟨_, Cert.BlockSparse.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v10_eq _ _ _ _).trans (Cert.BlockSparse.reference_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
